-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S2000x512 : Shape := ⟨2, ![2000, 512]⟩
abbrev S2000x128 : Shape := ⟨2, ![2000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 131
  | .vmem => 10
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S_, .f32⟩
  | 25 => ⟨S1700000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S_, .f32⟩
  | 87 => ⟨S1700000, .f32⟩
  | 88 => ⟨S100000, .f32⟩
  | 89 => ⟨S_, .f32⟩
  | 90 => ⟨S100000, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x512, .f32⟩

abbrev hbmTy0_1 (i : Nat) : BufTy := match i % 128 with
  | 0 => ⟨S1x64, .f32⟩
  | 1 => ⟨S100000x64, .f32⟩
  | 2 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S2000x512_S512x128_S2000x128_1_0_0_1_n_n_wf : DotDims.WF S2000x512 S512x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S_, .f32⟩
  | 25 => ⟨S1700000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S_, .f32⟩
  | 87 => ⟨S1700000, .f32⟩
  | 88 => ⟨S100000, .f32⟩
  | 89 => ⟨S_, .f32⟩
  | 90 => ⟨S100000, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x512, .f32⟩

abbrev hbmTy0_1 (i : Nat) : BufTy := match i % 128 with
  | 0 => ⟨S1x64, .f32⟩
  | 1 => ⟨S100000x64, .f32⟩
  | 2 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Layers.lean ====
/-
  The two graph-convolution layers as functions of the product they aggregate.

  Each layer of the network takes the node features times the layer's weights, `y = h · W`, and aggregates it over
  the graph's edges with one self-loop appended per node: with `src`, `dst` the two rows of the edge list and
  `deg(v)` the number of (looped) edges into `v`,
      out(v) = Σ_{e : dst(e) = v} y(src(e)) · deg(src(e))^(-1/2) · deg(dst(e))^(-1/2) + b,
  the first layer followed by a maximum with zero. Both programs compute everything after the product with the
  same host operations; only the product differs (a blocked product on one side, one whole product on the other).
  The functions below state those host operations once, over the product `y` as a parameter, so that the two
  programs' results are one function applied to two products.
-/
import proofs.«161421_j70136815943923_1_alg».proof.Proof.Gen.ReferenceIdeal.Run
import Idealize.ShloMosaic.PureOps.Ideal

noncomputable section

namespace Cert.Gcn

open Idealize.ShloMosaic Cert.ReferenceIdeal Cert.ReferenceIdeal.Gen

variable {F : FTy → Type} [FloatOps F]

/-- A row of the edge list. -/
abbrev EdgeRow (F : FTy → Type) := (⟨S1600000, .i32⟩ : BufTy).Contents (Elt F)
/-- A row of the edge list with the self-loops appended. -/
abbrev LoopedRow (F : FTy → Type) := (⟨S1700000, .i32⟩ : BufTy).Contents (Elt F)

/-- A row of the edge list followed by the self-loops `0, 1, …, 99999`. -/
def withLoops (v : EdgeRow F) : LoopedRow F :=
  concatenate S1700000 0 [⟨S1600000, v⟩, ⟨S100000, (iotaInDim S100000 32 0)⟩] concatenates_S1600000_S100000_S1700000_d0

/-- Node indices as a column of scatter / gather positions. -/
def asColumn (v : LoopedRow F) : (⟨S1700000x1, .i32⟩ : BufTy).Contents (Elt F) :=
  broadcastInDim S1700000x1 ![0] bcast_S1700000_S1700000x1_0 v

/-- Node indices with a negative index counted from the end (`v + 100000` where `v < 0`), as a column. -/
def wrapped (v : LoopedRow F) : (⟨S1700000x1, .i32⟩ : BufTy).Contents (Elt F) :=
  asColumn (select (cmpi .slt v (broadcastInDim S1700000 ![] bcast_S_S1700000 (constantI S_ 32 0#32)))
    (addi v (broadcastInDim S1700000 ![] bcast_S_S1700000 (constantI S_ 32 100000#32))) v)

/-- `deg^(-1/2)`: the in-degree of every node over the looped edges, at least one, under the reciprocal square root. -/
def invSqrtDeg (dst : EdgeRow F) : (⟨S100000, .f32⟩ : BufTy).Contents (Elt F) :=
  Host.rsqrt (maximumf
    (Host.scatterAdd scatter_S100000_S1700000x1_S1700000_n_0_0_1
      (broadcastInDim S100000 ![] bcast_S_S100000 (constant S_ .f32 0x00000000#32))
      (wrapped (withLoops dst))
      (broadcastInDim S1700000 ![] bcast_S_S1700000 (constant S_ .f32 0x3F800000#32)))
    (broadcastInDim S100000 ![] bcast_S_S100000 (constant S_ .f32 0x3F800000#32)))

/-- The weight of every looped edge: `deg(src)^(-1/2) · deg(dst)^(-1/2)`. -/
def edgeNorm (src dst : EdgeRow F) : (⟨S1700000, .f32⟩ : BufTy).Contents (Elt F) :=
  mulf
    (Host.gather gather_S100000_S1700000x1_S1700000_n_0_n_n_0_1_1 (invSqrtDeg dst) (wrapped (withLoops src)))
    (Host.gather gather_S100000_S1700000x1_S1700000_n_0_n_n_0_1_1 (invSqrtDeg dst) (wrapped (withLoops dst)))

/-- The first layer after its product `y`: the weighted rows of `y` gathered along the edges' sources, summed into the
    edges' targets, plus the bias, then the maximum with zero. -/
def layer1 (y : (⟨S100000x128, .f32⟩ : BufTy).Contents (Elt F)) (src dst : EdgeRow F)
    (b : (⟨S128, .f32⟩ : BufTy).Contents (Elt F)) : (⟨S100000x128, .f32⟩ : BufTy).Contents (Elt F) :=
  maximumf
    (addf
      (Host.scatterAdd scatter_S100000x128_S1700000x1_S1700000x128_1_0_0_1
        (broadcastInDim S100000x128 ![] bcast_S_S100000x128 (constant S_ .f32 0x00000000#32))
        (asColumn (withLoops dst))
        (mulf
          (Host.gather gather_S100000x128_S1700000x1_S1700000x128_1_0_n_n_0_1_1128 y (wrapped (withLoops src)))
          (broadcastInDim S1700000x128 ![0, 1] bcast_S1700000x1_S1700000x128_0_1
            (broadcastInDim S1700000x1 ![0] bcast_S1700000_S1700000x1_0 (edgeNorm src dst)))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer after its product `y`: the same aggregation at the narrower width, plus the bias. -/
def layer2 (y : (⟨S100000x64, .f32⟩ : BufTy).Contents (Elt F)) (src dst : EdgeRow F)
    (b : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (asColumn (withLoops dst))
      (mulf
        (Host.gather gather_S100000x64_S1700000x1_S1700000x64_1_0_n_n_0_1_164 y (wrapped (withLoops src)))
        (broadcastInDim S1700000x64 ![0, 1] bcast_S1700000x1_S1700000x64_0_1
          (broadcastInDim S1700000x1 ![0] bcast_S1700000_S1700000x1_0 (edgeNorm src dst)))))
    (broadcastInDim S100000x64 ![0, 1] bcast_S1x64_S100000x64_0_1 (broadcastInDim S1x64 ![1] bcast_S64_S1x64_1 b))

/-- The two rows of the edge list, cut out of the `2 × 1600000` array. -/
def edgeSrc (e : (⟨S2x1600000, .i32⟩ : BufTy).Contents (Elt F)) : EdgeRow F :=
  shapeCast _ (extractStridedSlice S1x1600000 ![0, 0] e slices_S2x1600000_S1x1600000_0_0) shapeCasts_S1x1600000_S1600000
def edgeDst (e : (⟨S2x1600000, .i32⟩ : BufTy).Contents (Elt F)) : EdgeRow F :=
  shapeCast _ (extractStridedSlice S1x1600000 ![1, 0] e slices_S2x1600000_S1x1600000_1_0) shapeCasts_S1x1600000_S1600000

/-- The whole network over its two products: `mm1` the first layer's product of the features and its weights,
    `mm2` the second layer's product of the hidden features and its weights. -/
def network
    (mm1 : (⟨S100000x512, .f32⟩ : BufTy).Contents (Elt F) → (⟨S512x128, .f32⟩ : BufTy).Contents (Elt F) → (⟨S100000x128, .f32⟩ : BufTy).Contents (Elt F))
    (mm2 : (⟨S100000x128, .f32⟩ : BufTy).Contents (Elt F) → (⟨S128x64, .f32⟩ : BufTy).Contents (Elt F) → (⟨S100000x64, .f32⟩ : BufTy).Contents (Elt F))
    (x : (⟨S100000x512, .f32⟩ : BufTy).Contents (Elt F)) (e : (⟨S2x1600000, .i32⟩ : BufTy).Contents (Elt F))
    (w1 : (⟨S512x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S100000x64, .f32⟩ : BufTy).Contents (Elt F) :=
  layer2 (mm2 (layer1 (mm1 x w1) (edgeSrc e) (edgeDst e) b1) w2) (edgeSrc e) (edgeDst e) b2

/-- The whole rows-by-columns product of an `M × K` by a `K × N` array at the ideal values: entry `(p, q)` is
    `Σ_k l (p, k) · r (k, q)`, no rounding and no order of accumulation left in it. -/
abbrev wholeProduct (M K N : ℕ) (l : FVec Ideal ⟨2, ![M, K]⟩ .f32) (r : FVec Ideal ⟨2, ![K, N]⟩ .f32) :
    FVec Ideal ⟨2, ![M, N]⟩ .f32 :=
  FloatOps.dotGeneral (DotDims.plain M K N) none .single l r

open Cert.ReferenceIdeal.Value in
set_option maxRecDepth 8192 in
/-- The reference's result is the network over the host's two whole products. -/
theorem reference_eq (m : (ℓ : Loc nD τ sig) → Buf (Elt F) ℓ) (c : Dev nD) :
    res_main_v98 m c
      = network (fun l r => Host.dotGeneral dot_S100000x512_S512x128_S100000x128_1_0_0_1_n_n none l r)
          (fun l r => Host.dotGeneral dot_S100000x128_S128x64_S100000x64_1_0_0_1_n_n none l r)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v98
  rfl

open Cert.ReferenceIdeal.Value in
/-- At the ideal values the host's two products are the plain whole products. -/
theorem reference_whole (m : (ℓ : Loc nD τ sig) → Buf (Elt Ideal) ℓ) (c : Dev nD) :
    res_main_v98 m c
      = network (F := Ideal) (wholeProduct 100000 512 128) (wholeProduct 100000 128 64)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (reference_eq m c).trans rfl

end Cert.Gcn

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Region0.lean ====
/-
  Launch 0 of the program: the blocked product is the whole product.

  The launch walks the 100000 rows of its left operand in 50 blocks of 2000 rows; at block `t` it multiplies rows
  `2000 t … 2000 t + 1999` by the whole right operand (both read at the narrower float format, which changes nothing at
  the ideal values) into a zero accumulator and writes the 2000 × 128 result back as block `t` of the output. Entry
  `(2000 t + p, q)` of the output is therefore `Σ_k lhs (2000 t + p, k) · rhs (k, q)`: entry `(2000 t + p, q)` of the one
  whole product, and the 50 blocks cover every row.
-/
import proofs.«161421_j70136815943923_1_alg».proof.Proof.Gen.KernelIdeal.Frame
import proofs.«161421_j70136815943923_1_alg».proof.Proof.LibDot
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The launch's left operand array as the launch finds it. -/
abbrev lhsArr (c : Dev nD) : FVec Ideal ⟨2, ![100000, 512]⟩ .f32 := V c main_arg0
/-- The launch's right operand array as the launch finds it. -/
abbrev rhsArr (c : Dev nD) : FVec Ideal ⟨2, ![512, 128]⟩ .f32 := V c main_arg2

/-- The whole product of the two operand arrays. -/
def product (c : Dev nD) : FVec Ideal ⟨2, ![100000, 128]⟩ .f32 :=
  FloatOps.dotGeneral (DotDims.plain 100000 512 128) none .single (lhsArr V c) (rhsArr V c)

/-- The whole product at any entry is the sum over the shared axis. -/
theorem product_apply (c : Dev nD) (i : (⟨2, ![100000, 128]⟩ : Shape).Idx) :
    product V c i = ∑ k : Fin 512, lhsArr V c (ix2 (i 0) k) * rhsArr V c (ix2 k (i 1)) :=
  (congrArg (product V c) (eq_ix2 i)).trans
    (Cert.GNN.dotGeneral_plain_apply none .single (lhsArr V c) (rhsArr V c) (i 0) (i 1))

/-- One block's product at an entry: the body's stored value is the product of its two loaded blocks into zero. -/
theorem block_apply (x0 : Vec Ideal S2000x512 .f32) (x1 : Vec Ideal S512x128 .f32) (p : Fin 2000) (q : Fin 128) :
    k0_pay1 x0 x1 (ix2 p q) = ∑ k : Fin 512, x0 (ix2 p k) * x1 (ix2 k q) :=
  Cert.GNN.matmul_plain_zero_apply none x0 x1 p q

/-- The printed index maps over the grid: the left operand's and the output's blocks move down the rows together, the
    right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x128) origin]
  obtain ⟨e0, e1, e2, e3, e4, e5⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q) = product V c (((cfg0.win 2).blk t).view.emb (ix2 p q))
  refine (block_apply (iblk0 V c 0 t) (iblk0 V c 1 t) p q).trans ?_
  rw [product_apply]
  refine Finset.sum_congr rfl fun k _ => ?_
  -- row `p` of the left block is row `2000 t + p` of the array; the right block is the whole right array
  have hl : iblk0 V c 0 t (ix2 p k) = lhsArr V c (ix2 (((cfg0.win 2).blk t).view.emb (ix2 p q) 0) k) := by
    show V c main_arg0 (((cfg0.win 0).blk t).view.emb (ix2 p k)) = V c main_arg0 (ix2 (((cfg0.win 2).blk t).view.emb (ix2 p q) 0) k)
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hr : iblk0 V c 1 t (ix2 k q) = rhsArr V c (ix2 k (((cfg0.win 2).blk t).view.emb (ix2 p q) 1)) := by
    show V c main_arg2 (((cfg0.win 1).blk t).view.emb (ix2 k q)) = V c main_arg2 (ix2 k (((cfg0.win 2).blk t).view.emb (ix2 p q) 1))
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  rw [hl, hr]

/-- An entry of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Every entry of the output array is in some point's block: row `r` is in block `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, e4, e5⟩ := idx_facts ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- The launch leaves its output array at the whole product of its operand arrays. -/
theorem array_eq (c : Dev nD) : (dat0 V c).arrAt 2 cfg0.N = product V c :=
  (dat0 V c).arrAt_eq_of_cover 2 (product V c) (fun t _ => flushed_eq V c t) cover

end Cert.KernelIdeal.Region0

end
-- ==== Proof.Region1.lean ====
/-
  Launch 1 of the program: the blocked product is the whole product.

  The launch walks the 100000 rows of its left operand in 50 blocks of 2000 rows; at block `t` it multiplies rows
  `2000 t … 2000 t + 1999` by the whole right operand (both read at the narrower float format, which changes nothing at
  the ideal values) into a zero accumulator and writes the 2000 × 64 result back as block `t` of the output. Entry
  `(2000 t + p, q)` of the output is therefore `Σ_k lhs (2000 t + p, k) · rhs (k, q)`: entry `(2000 t + p, q)` of the one
  whole product, and the 50 blocks cover every row.
-/
import proofs.«161421_j70136815943923_1_alg».proof.Proof.Gen.KernelIdeal.Frame
import proofs.«161421_j70136815943923_1_alg».proof.Proof.LibDot
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The launch's left operand array as the launch finds it. -/
abbrev lhsArr (c : Dev nD) : FVec Ideal ⟨2, ![100000, 128]⟩ .f32 := V c main_v51
/-- The launch's right operand array as the launch finds it. -/
abbrev rhsArr (c : Dev nD) : FVec Ideal ⟨2, ![128, 64]⟩ .f32 := V c main_arg4

/-- The whole product of the two operand arrays. -/
def product (c : Dev nD) : FVec Ideal ⟨2, ![100000, 64]⟩ .f32 :=
  FloatOps.dotGeneral (DotDims.plain 100000 128 64) none .single (lhsArr V c) (rhsArr V c)

/-- The whole product at any entry is the sum over the shared axis. -/
theorem product_apply (c : Dev nD) (i : (⟨2, ![100000, 64]⟩ : Shape).Idx) :
    product V c i = ∑ k : Fin 128, lhsArr V c (ix2 (i 0) k) * rhsArr V c (ix2 k (i 1)) :=
  (congrArg (product V c) (eq_ix2 i)).trans
    (Cert.GNN.dotGeneral_plain_apply none .single (lhsArr V c) (rhsArr V c) (i 0) (i 1))

/-- One block's product at an entry: the body's stored value is the product of its two loaded blocks into zero (the
    left block first cast to its own shape, which changes nothing). -/
theorem block_apply (x0 : Vec Ideal S2000x128 .f32) (x1 : Vec Ideal S128x64 .f32) (p : Fin 2000) (q : Fin 64) :
    k1_pay1 x0 x1 (ix2 p q) = ∑ k : Fin 128, x0 (ix2 p k) * x1 (ix2 k q) := by
  unfold k1_pay1
  rw [shapeCast_self]
  exact Cert.GNN.matmul_plain_zero_apply none x0 x1 p q

/-- The printed index maps over the grid: the left operand's and the output's blocks move down the rows together, the
    right operand stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x64) origin]
  obtain ⟨e0, e1, e2, e3, e4, e5⟩ := idx_facts t
  funext j
  obtain ⟨p, q, rfl⟩ : ∃ (p : Fin 2000) (q : Fin 64), j = ix2 p q := ⟨j 0, j 1, eq_ix2 j⟩
  show k1_pay1 (iblk1 V c 0 t) (iblk1 V c 1 t) (ix2 p q) = product V c (((cfg1.win 2).blk t).view.emb (ix2 p q))
  refine (block_apply (iblk1 V c 0 t) (iblk1 V c 1 t) p q).trans ?_
  rw [product_apply]
  refine Finset.sum_congr rfl fun k _ => ?_
  -- row `p` of the left block is row `2000 t + p` of the array; the right block is the whole right array
  have hl : iblk1 V c 0 t (ix2 p k) = lhsArr V c (ix2 (((cfg1.win 2).blk t).view.emb (ix2 p q) 0) k) := by
    show V c main_v51 (((cfg1.win 0).blk t).view.emb (ix2 p k)) = V c main_v51 (ix2 (((cfg1.win 2).blk t).view.emb (ix2 p q) 0) k)
    refine congrArg (V c main_v51) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * k.val = k.val; omega
  have hr : iblk1 V c 1 t (ix2 k q) = rhsArr V c (ix2 k (((cfg1.win 2).blk t).view.emb (ix2 p q) 1)) := by
    show V c main_arg4 (((cfg1.win 1).blk t).view.emb (ix2 k q)) = V c main_arg4 (ix2 k (((cfg1.win 2).blk t).view.emb (ix2 p q) 1))
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega
  rw [hl, hr]

/-- An entry of the output array is in point `t`'s block iff each coordinate is in the block's range on its axis. -/
theorem mem_blk (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v52).slice (win1_2.rect t)).set ↔ _
  rw [View.set_slice_whole, Rect.mem_set_unit]
  exact Iff.rfl

/-- Every entry of the output array is in some point's block: row `r` is in block `r / 2000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨-, -, -, -, e4, e5⟩ := idx_facts ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 64 ≤ (i 1).val
      ∧ (i 1).val < win1_2.index ⟨(i 0).val / 2000, ht⟩ (1 : Fin 2) * 64 + 64
    omega

/-- The launch leaves its output array at the whole product of its operand arrays. -/
theorem array_eq (c : Dev nD) : (dat1 V c).arrAt 2 cfg1.N = product V c :=
  (dat1 V c).arrAt_eq_of_cover 2 (product V c) (fun t _ => flushed_eq V c t) cover

end Cert.KernelIdeal.Region1

end
-- ==== Proof.KernelValue.lean ====
/-
  The kernel program's result as the network over its two launches' products.

  Between the launch of @main and its return the program's buffers pass through six stretches: the edge list cut
  into its two rows; the first launch; the first layer's aggregation, bias and maximum with zero; the second launch;
  the second layer's aggregation and bias. Read back from the result buffer, each host stretch is the layer's function
  of what the launch before it left, each launch leaves its output array at the whole product of its operands, and the
  rows of the edge list, the weights and the biases are read where nothing after the launch of @main writes them.
  (`W0 … W6` are the buffers' contents at the seven boundaries of those stretches, from the launch of @main to its
  return; `Wk … c b` is buffer `b` of core `c` there.)
-/
import proofs.«161421_j70136815943923_1_alg».proof.Proof.Gen.KernelIdeal.Frame
import proofs.«161421_j70136815943923_1_alg».proof.Proof.Layers
import proofs.«161421_j70136815943923_1_alg».proof.Proof.Region0
import proofs.«161421_j70136815943923_1_alg».proof.Proof.Region1
import Idealize.ShloMosaic.Lib.StableHlo.Run
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

section AnyFloats

/-! ## The host stretches, whatever the floats are: the operations are only composed here, never computed -/

variable {F : FTy → Type} [FloatOps F] (m : (ℓ : Loc nD τ sig) → Buf (Elt F) ℓ) (ρ : Dev nD → PrngReg)

/-! ## The edge list's rows, cut once before the first launch and read by both layers -/

theorem W1_src (c : Dev nD) : W1 m ρ c (Proc.devRef .tc main_v1) = Cert.Gcn.edgeSrc (m ((c.tc : Thread nD τ).loc main_arg1)) := by
  show StableHlo.after hostOps0 (W0 m ρ c) (Proc.devRef .tc main_v1) = _
  after_results_simp
  rfl

theorem W1_dst (c : Dev nD) : W1 m ρ c (Proc.devRef .tc main_v3) = Cert.Gcn.edgeDst (m ((c.tc : Thread nD τ).loc main_arg1)) := by
  show StableHlo.after hostOps0 (W0 m ρ c) (Proc.devRef .tc main_v3) = _
  after_results_simp
  rfl

/-! ## The weights and biases before the first launch: as launched -/

theorem W1_x (c : Dev nD) : W1 m ρ c (Proc.devRef .tc main_arg0) = (m ((c.tc : Thread nD τ).loc main_arg0)) := by
  show StableHlo.after hostOps0 (W0 m ρ c) (Proc.devRef .tc main_arg0) = _
  after_results_simp <;> rfl

theorem W1_w1 (c : Dev nD) : W1 m ρ c (Proc.devRef .tc main_arg2) = (m ((c.tc : Thread nD τ).loc main_arg2)) := by
  show StableHlo.after hostOps0 (W0 m ρ c) (Proc.devRef .tc main_arg2) = _
  after_results_simp <;> rfl

theorem W1_b1 (c : Dev nD) : W1 m ρ c (Proc.devRef .tc main_arg3) = (m ((c.tc : Thread nD τ).loc main_arg3)) := by
  show StableHlo.after hostOps0 (W0 m ρ c) (Proc.devRef .tc main_arg3) = _
  after_results_simp <;> rfl

theorem W1_w2 (c : Dev nD) : W1 m ρ c (Proc.devRef .tc main_arg4) = (m ((c.tc : Thread nD τ).loc main_arg4)) := by
  show StableHlo.after hostOps0 (W0 m ρ c) (Proc.devRef .tc main_arg4) = _
  after_results_simp <;> rfl

theorem W1_b2 (c : Dev nD) : W1 m ρ c (Proc.devRef .tc main_arg5) = (m ((c.tc : Thread nD τ).loc main_arg5)) := by
  show StableHlo.after hostOps0 (W0 m ρ c) (Proc.devRef .tc main_arg5) = _
  after_results_simp <;> rfl

/-! ## What no launch and no later host operation writes, read at the later boundaries -/

theorem W2_src (c : Dev nD) : W2 m ρ c (Proc.devRef .tc main_v1) = Cert.Gcn.edgeSrc (m ((c.tc : Thread nD τ).loc main_arg1)) :=
  (W2_of_ne m ρ c main_v1 (by decide)).trans (W1_src m ρ c)

theorem W4_src (c : Dev nD) : W4 m ρ c (Proc.devRef .tc main_v1) = Cert.Gcn.edgeSrc (m ((c.tc : Thread nD τ).loc main_arg1)) := by
  refine Eq.trans ?_ (W2_src m ρ c)
  show StableHlo.after hostOps1_1 (StableHlo.after hostOps1 (W2 m ρ c)) (Proc.devRef .tc main_v1) = _
  after_results_simp

theorem W5_src (c : Dev nD) : W5 m ρ c (Proc.devRef .tc main_v1) = Cert.Gcn.edgeSrc (m ((c.tc : Thread nD τ).loc main_arg1)) :=
  (W5_of_ne m ρ c main_v1 (by decide)).trans (W4_src m ρ c)

theorem W2_dst (c : Dev nD) : W2 m ρ c (Proc.devRef .tc main_v3) = Cert.Gcn.edgeDst (m ((c.tc : Thread nD τ).loc main_arg1)) :=
  (W2_of_ne m ρ c main_v3 (by decide)).trans (W1_dst m ρ c)

theorem W4_dst (c : Dev nD) : W4 m ρ c (Proc.devRef .tc main_v3) = Cert.Gcn.edgeDst (m ((c.tc : Thread nD τ).loc main_arg1)) := by
  refine Eq.trans ?_ (W2_dst m ρ c)
  show StableHlo.after hostOps1_1 (StableHlo.after hostOps1 (W2 m ρ c)) (Proc.devRef .tc main_v3) = _
  after_results_simp

theorem W5_dst (c : Dev nD) : W5 m ρ c (Proc.devRef .tc main_v3) = Cert.Gcn.edgeDst (m ((c.tc : Thread nD τ).loc main_arg1)) :=
  (W5_of_ne m ρ c main_v3 (by decide)).trans (W4_dst m ρ c)

theorem W2_b1 (c : Dev nD) : W2 m ρ c (Proc.devRef .tc main_arg3) = (m ((c.tc : Thread nD τ).loc main_arg3)) :=
  (W2_of_ne m ρ c main_arg3 (by decide)).trans (W1_b1 m ρ c)

theorem W2_w2 (c : Dev nD) : W2 m ρ c (Proc.devRef .tc main_arg4) = (m ((c.tc : Thread nD τ).loc main_arg4)) :=
  (W2_of_ne m ρ c main_arg4 (by decide)).trans (W1_w2 m ρ c)

theorem W4_w2 (c : Dev nD) : W4 m ρ c (Proc.devRef .tc main_arg4) = (m ((c.tc : Thread nD τ).loc main_arg4)) := by
  refine Eq.trans ?_ (W2_w2 m ρ c)
  show StableHlo.after hostOps1_1 (StableHlo.after hostOps1 (W2 m ρ c)) (Proc.devRef .tc main_arg4) = _
  after_results_simp

theorem W2_b2 (c : Dev nD) : W2 m ρ c (Proc.devRef .tc main_arg5) = (m ((c.tc : Thread nD τ).loc main_arg5)) :=
  (W2_of_ne m ρ c main_arg5 (by decide)).trans (W1_b2 m ρ c)

theorem W4_b2 (c : Dev nD) : W4 m ρ c (Proc.devRef .tc main_arg5) = (m ((c.tc : Thread nD τ).loc main_arg5)) := by
  refine Eq.trans ?_ (W2_b2 m ρ c)
  show StableHlo.after hostOps1_1 (StableHlo.after hostOps1 (W2 m ρ c)) (Proc.devRef .tc main_arg5) = _
  after_results_simp

theorem W5_b2 (c : Dev nD) : W5 m ρ c (Proc.devRef .tc main_arg5) = (m ((c.tc : Thread nD τ).loc main_arg5)) :=
  (W5_of_ne m ρ c main_arg5 (by decide)).trans (W4_b2 m ρ c)

/-! ## The two launches' outputs -/

/-- The first layer's host stretch: the layer's function of the first launch's output. -/
theorem W4_hidden (c : Dev nD) :
    W4 m ρ c (Proc.devRef .tc main_v51)
      = Cert.Gcn.layer1 (W2 m ρ c (Proc.devRef .tc main_v4)) (W2 m ρ c (Proc.devRef .tc main_v1))
          (W2 m ρ c (Proc.devRef .tc main_v3)) (W2 m ρ c (Proc.devRef .tc main_arg3)) := by
  show StableHlo.after hostOps1_1 (StableHlo.after hostOps1 (W2 m ρ c)) (Proc.devRef .tc main_v51) = _
  after_results_simp
  rfl

set_option maxHeartbeats 8000000 in
-- each concatenation's two pieces are read back through the whole stretch one operation at a time, by unfolding
/-- The second layer's host stretch: the layer's function of the second launch's output. -/
theorem W6_result (c : Dev nD) :
    W6 m ρ c (Proc.devRef .tc main_v98)
      = Cert.Gcn.layer2 (W5 m ρ c (Proc.devRef .tc main_v52)) (W5 m ρ c (Proc.devRef .tc main_v1))
          (W5 m ρ c (Proc.devRef .tc main_v3)) (W5 m ρ c (Proc.devRef .tc main_arg5)) := by
  show StableHlo.after hostOps2 (W5 m ρ c) (Proc.devRef .tc main_v98) = _
  after_results_simp
  rfl

/-! ## The result -/

end AnyFloats

section IdealValues

/-! ## At the ideal values: each launch's output is the whole product -/

variable (m : (ℓ : Loc nD τ sig) → Buf (Elt Ideal) ℓ) (ρ : Dev nD → PrngReg)

/-- The first launch leaves the product of the features and the first weights. -/
theorem W2_product (c : Dev nD) :
    W2 m ρ c (Proc.devRef .tc main_v4)
      = Cert.Gcn.wholeProduct 100000 512 128 (m ((c.tc : Thread nD τ).loc main_arg0)) (m ((c.tc : Thread nD τ).loc main_arg2)) := by
  refine ((W2_arr m ρ c 2).trans (Region0.array_eq (V1 m ρ) c)).trans ?_
  show Cert.Gcn.wholeProduct 100000 512 128 (Region0.lhsArr (V1 m ρ) c) (Region0.rhsArr (V1 m ρ) c) = _
  exact congrArg₂ (Cert.Gcn.wholeProduct 100000 512 128) (W1_x m ρ c) (W1_w1 m ρ c)

/-- The second launch leaves the product of the hidden features and the second weights. -/
theorem W5_product (c : Dev nD) :
    W5 m ρ c (Proc.devRef .tc main_v52)
      = Cert.Gcn.wholeProduct 100000 128 64 (W4 m ρ c (Proc.devRef .tc main_v51)) (m ((c.tc : Thread nD τ).loc main_arg4)) := by
  refine ((W5_arr m ρ c 2).trans (Region1.array_eq (V4 m ρ) c)).trans ?_
  show Cert.Gcn.wholeProduct 100000 128 64 (Region1.lhsArr (V4 m ρ) c) (Region1.rhsArr (V4 m ρ) c) = _
  exact congrArg₂ (Cert.Gcn.wholeProduct 100000 128 64) rfl (W4_w2 m ρ c)

/-- The program's result buffer ends at the network over the two whole products, of the arguments as launched. -/
theorem result_eq (c : Dev nD) :
    W6 m ρ c (Proc.devRef .tc main_v98)
      = Cert.Gcn.network (F := Ideal) (Cert.Gcn.wholeProduct 100000 512 128) (Cert.Gcn.wholeProduct 100000 128 64)
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [W6_result, W5_product, W4_hidden, W2_product, W5_src, W5_dst, W5_b2, W2_src, W2_dst, W2_b1]
  rfl

end IdealValues

end Cert.KernelIdeal.Glue

end
-- ==== Proof.lean ====
/-
  The certificate of a two-layer graph convolution whose two dense products run as blocked launches.

  Each layer is `aggregate (h · W) + b` over the edge list with self-loops and the symmetric `deg^(-1/2)`
  normalisation, the first followed by a maximum with zero. The kernel program computes each product `h · W` in 50
  row blocks of 2000 rows (operands read at a narrower float format, accumulated from zero); the reference computes
  it as one whole product; everything else is the same host operations in both. At the ideal values the narrower
  format is the identity and a blocked rows-by-columns product IS the whole product, entry by entry the same sum over
  the shared axis, so both programs end at one function of the arguments: the two layers' host operations over the
  two whole products. No law of the extended reals beyond that is used, and finiteness of the inputs is not needed.
  The three frames: the two kernel programs' by their launch-and-host-stretch segments, the reference's by its run.
  Nothing was rewritten by the idealisation, so its conjunct is trivial.
-/
import proofs.«161421_j70136815943923_1_alg».proof.Defs
import proofs.«161421_j70136815943923_1_alg».proof.Proof.Gen.Kernel
import proofs.«161421_j70136815943923_1_alg».proof.Proof.Gen.Kernel.Skeleton
import proofs.«161421_j70136815943923_1_alg».proof.Proof.Gen.Kernel.Launch
import proofs.«161421_j70136815943923_1_alg».proof.Proof.Gen.Kernel.Points
import proofs.«161421_j70136815943923_1_alg».proof.Proof.Gen.Kernel.Frame
import proofs.«161421_j70136815943923_1_alg».proof.Proof.Gen.KernelIdeal
import proofs.«161421_j70136815943923_1_alg».proof.Proof.Gen.KernelIdeal.Skeleton
import proofs.«161421_j70136815943923_1_alg».proof.Proof.Gen.KernelIdeal.Launch
import proofs.«161421_j70136815943923_1_alg».proof.Proof.Gen.KernelIdeal.Points
import proofs.«161421_j70136815943923_1_alg».proof.Proof.Gen.KernelIdeal.Frame
import proofs.«161421_j70136815943923_1_alg».proof.Proof.Gen.ReferenceIdeal
import proofs.«161421_j70136815943923_1_alg».proof.Proof.Gen.Pre_finite_inputs
import proofs.«161421_j70136815943923_1_alg».proof.Proof.Gen.ReferenceIdeal.Run
import proofs.«161421_j70136815943923_1_alg».proof.Proof.KernelIdealRun
import proofs.«161421_j70136815943923_1_alg».proof.Proof.Layers
import proofs.«161421_j70136815943923_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the network over the two whole products of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v98),
    Cert.KernelIdeal.GenRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.Gcn.reference_whole m' c).trans (Eq.trans ?_ (Cert.KernelIdeal.Glue.result_eq m ρ c).symm)
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
